-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x3 : Shape := ⟨2, ![32768, 3]⟩
abbrev S128x256 : Shape := ⟨2, ![128, 256]⟩
abbrev S256x256 : Shape := ⟨2, ![256, 256]⟩
abbrev S128 : Shape := ⟨1, ![128]⟩
abbrev S262144 : Shape := ⟨1, ![262144]⟩
abbrev S32768 : Shape := ⟨1, ![32768]⟩
abbrev S_ : Shape := ⟨0, ![]⟩
abbrev S1 : Shape := ⟨1, ![1]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x3 : S_.BroadcastsInDim S32768x3 (![] : Fin 0 → Fin S32768x3.rank)
  reducesTo_S32768x3_S_d0_1 : S32768x3.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S128 : S_.BroadcastsInDim S128 (![] : Fin 0 → Fin S128.rank)
  reducesTo_S128_S_d0 : S128.ReducesTo [0] S_
  slices_S128_S1_1 : S128.Slices ![1] S1
  shapeCasts_S1_S_ : S1.ShapeCasts S_
  slices_S128_S1_0 : S128.Slices ![0] S1

variable [Facts]

def fn_part1 {F : FTy → Type} [FloatOps F] (main_arg4 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1 .f32 := (extractStridedSlice S1 ![1] · slices_S128_S1_1) main_arg4
  let main_v25 : FVec F S_ .f32 := shapeCast S_ main_v24 shapeCasts_S1_S_
  let main_v26 : FVec F S1 .f32 := (extractStridedSlice S1 ![0] · slices_S128_S1_0) main_arg4
  let main_v27 : FVec F S_ .f32 := shapeCast S_ main_v26 shapeCasts_S1_S_
  let main_v28 : IVec S_ 1 := cmpf .une main_v25 main_v27
  let main_v29 : IVec S_ 1 := andi main_v23 main_v28
  main_v29

def fn {F : FTy → Type} [FloatOps F] (main_arg0 : FVec F S32768x256 .f32) (main_arg1 : FVec F S32768x3 .f32) (main_arg2 : FVec F S128x256 .f32) (main_arg3 : FVec F S256x256 .f32) (main_arg4 : FVec F S128 .f32) (main_arg5 : IVec S262144 32) (main_arg6 : IVec S262144 32) (main_arg7 : IVec S32768 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x3 .f32 := Host.absf main_arg1
  let main_cst_0 : FVec F S_ .f32 := constant S_ .f32 0x7F800000#32
  let main_v5 : FVec F S32768x3 .f32 := broadcastInDim S32768x3 ![] bcast_S_S32768x3 main_cst_0
  let main_v6 : IVec S32768x3 1 := cmpf .olt main_v4 main_v5
  let main_c_1 : IVec S_ 1 := constantI S_ 1 1#1
  let main_v7 : IVec S_ 1 := (fun x v => Host.reduce IntOp.andi x v reducesTo_S32768x3_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S32768x256 : Shape := ⟨2, ![32768, 256]⟩
abbrev S32768x3 : Shape := ⟨2, ![32768, 3]⟩
abbrev S128x256 : Shape := ⟨2, ![128, 256]⟩
abbrev S256x256 : Shape := ⟨2, ![256, 256]⟩
abbrev S128 : Shape := ⟨1, ![128]⟩
abbrev S262144 : Shape := ⟨1, ![262144]⟩
abbrev S32768 : Shape := ⟨1, ![32768]⟩
abbrev S_ : Shape := ⟨0, ![]⟩
abbrev S262144x1 : Shape := ⟨2, ![262144, 1]⟩
abbrev S262144x3 : Shape := ⟨2, ![262144, 3]⟩
abbrev S262144x256 : Shape := ⟨2, ![262144, 256]⟩
abbrev S1 : Shape := ⟨1, ![1]⟩
abbrev S1x128 : Shape := ⟨2, ![1, 128]⟩
abbrev S2048x1 : Shape := ⟨2, ![2048, 1]⟩
abbrev S2048x256 : Shape := ⟨2, ![2048, 256]⟩
abbrev S2048x128 : Shape := ⟨2, ![2048, 128]⟩

abbrev nBuf : Space → Nat
  | .hbm => 61
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S32768x3, .f32⟩
  | .hbm, ⟨2, _⟩ => ⟨S128x256, .f32⟩
  | .hbm, ⟨3, _⟩ => ⟨S256x256, .f32⟩
  | .hbm, ⟨4, _⟩ => ⟨S128, .f32⟩
  | .hbm, ⟨5, _⟩ => ⟨S262144, .i32⟩
  | .hbm, ⟨6, _⟩ => ⟨S262144, .i32⟩
  | .hbm, ⟨7, _⟩ => ⟨S32768, .i32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x3, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x3, .f32⟩
  | .hbm, ⟨26, _⟩ => ⟨S262144x3, .f32⟩
  | .hbm, ⟨27, _⟩ => ⟨S262144x3, .f32⟩
  | .hbm, ⟨28, _⟩ => ⟨S_, .f32⟩
  | .hbm, ⟨29, _⟩ => ⟨S262144, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x256, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S262144, .f32⟩
  | .hbm, ⟨49, _⟩ => ⟨S262144, .f32⟩
  | .hbm, ⟨50, _⟩ => ⟨S262144x1, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S128x256, .bf16⟩
  | .hbm, ⟨55, _⟩ => ⟨S256x256, .bf16⟩
  | .hbm, ⟨56, _⟩ => ⟨S262144x256, .f32⟩
  | .hbm, ⟨57, _⟩ => ⟨S_, .f32⟩
  | .hbm, ⟨58, _⟩ => ⟨S32768x256, .f32⟩
  | .hbm, ⟨59, _⟩ => ⟨S262144x1, .i32⟩
  | .hbm, ⟨60, _⟩ => ⟨S32768x256, .f32⟩
  | .local _ .vmem, ⟨0, _⟩ => ⟨S2048x1, .f32⟩
  | .local _ .vmem, ⟨1, _⟩ => ⟨S2048x1, .f32⟩
  | .local _ .vmem, ⟨2, _⟩ => ⟨S1x128, .f32⟩
  | .local _ .vmem, ⟨3, _⟩ => ⟨S128x256, .bf16⟩
  | .local _ .vmem, ⟨4, _⟩ => ⟨S256x256, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  h_S_ : 0 < S_.numel
  slices_S128_S1_1 : S128.Slices ![1] S1
  shapeCasts_S1_S_ : S1.ShapeCasts S_
  slices_S128_S1_0 : S128.Slices ![0] S1
  shapeCasts_S262144_S262144x1 : S262144.ShapeCasts S262144x1
  bcast_S_S128 : S_.BroadcastsInDim S128 (![] : Fin 0 → Fin S128.rank)
  shapeCasts_S128_S1x128 : S128.ShapeCasts S1x128
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2048x1_S2048x128 : S2048x1.Broadcasts S2048x128
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bcast_S_S32768x256 : S_.BroadcastsInDim S32768x256 (![] : Fin 0 → Fin S32768x256.rank)
  gather_S32768x3_S262144x1_S262144x3_1_0_n_n_0_1_13_wf : GatherDims.WF S32768x3 S262144x1 S262144x3 [1] [0] [] [0] [] 1 ![1, 3]
  gather_S32768x256_S262144x1_S262144x256_1_0_n_n_0_1_1256_wf : GatherDims.WF S32768x256 S262144x1 S262144x256 [1] [0] [] [0] [] 1 ![1, 256]
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  scatter_S32768x256_S262144x1_S262144x256_1_0_0_1_wf : ScatterDims.WF S32768x256 S262144x1 S262144x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S262144x1.size a
  hwx0_0 : ∀ i : grid0.Coords, EltTy.bits .f32 = 32 ∨ (Rect.block (s := S262144x1) S2048x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S262144x256.size a
  hwx0_4 : ∀ i : grid0.Coords, EltTy.bits .f32 = 32 ∨ (Rect.block (s := S262144x256) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S262144x256.size a
  hwx0_5 : ∀ i : grid0.Coords, EltTy.bits .f32 = 32 ∨ (Rect.block (s := S262144x256) S2048x256.size (cc0_transform_5 i) (hinb0_5 i)).WholeWords (EltTy.packing .f32)

variable [Facts₀]

def gather_S32768x3_S262144x1_S262144x3_1_0_n_n_0_1_13 : GatherDims S32768x3 S262144x1 S262144x3 where
  offsetDims := [1]
  collapsedSliceDims := [0]
  operandBatchingDims := []
  startIndicesBatchingDims := []
  startIndexMap := [0]
  indexVectorDim := 1
  sliceSizes := ![1, 3]
  wf := gather_S32768x3_S262144x1_S262144x3_1_0_n_n_0_1_13_wf
def gather_S32768x256_S262144x1_S262144x256_1_0_n_n_0_1_1256 : GatherDims S32768x256 S262144x1 S262144x256 where
  offsetDims := [1]
  collapsedSliceDims := [0]
  operandBatchingDims := []
  startIndicesBatchingDims := []
  startIndexMap := [0]
  indexVectorDim := 1
  sliceSizes := ![1, 256]
  wf := gather_S32768x256_S262144x1_S262144x256_1_0_n_n_0_1_1256_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S32768x256_S262144x1_S262144x256_1_0_0_1 : ScatterDims S32768x256 S262144x1 S262144x256 where
  updateWindowDims := [1]
  insertedWindowDims := [0]
  scatterDimsToOperandDims := [0]
  indexVectorDim := 1
  wf := scatter_S32768x256_S262144x1_S262144x256_1_0_0_1_wf

abbrev win0_0 : Pipeline.Window sig grid0 :=
  Pipeline.Window.ofSpec (Memref.whole main_v34) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x3 : Shape := ⟨2, ![32768, 3]⟩
abbrev S128x256 : Shape := ⟨2, ![128, 256]⟩
abbrev S256x256 : Shape := ⟨2, ![256, 256]⟩
abbrev S128 : Shape := ⟨1, ![128]⟩
abbrev S262144 : Shape := ⟨1, ![262144]⟩
abbrev S32768 : Shape := ⟨1, ![32768]⟩
abbrev S_ : Shape := ⟨0, ![]⟩
abbrev S262144x1 : Shape := ⟨2, ![262144, 1]⟩
abbrev S262144x3 : Shape := ⟨2, ![262144, 3]⟩
abbrev S1 : Shape := ⟨1, ![1]⟩
abbrev S1x128 : Shape := ⟨2, ![1, 128]⟩
abbrev S262144x128 : Shape := ⟨2, ![262144, 128]⟩
abbrev S262144x256 : Shape := ⟨2, ![262144, 256]⟩

abbrev nBuf : Space → Nat
  | .hbm => 70
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x3, .f32⟩
  | .hbm, ⟨2, _⟩ => ⟨S128x256, .f32⟩
  | .hbm, ⟨3, _⟩ => ⟨S256x256, .f32⟩
  | .hbm, ⟨4, _⟩ => ⟨S128, .f32⟩
  | .hbm, ⟨5, _⟩ => ⟨S262144, .i32⟩
  | .hbm, ⟨6, _⟩ => ⟨S262144, .i32⟩
  | .hbm, ⟨7, _⟩ => ⟨S32768, .i32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x3, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x3, .f32⟩
  | .hbm, ⟨26, _⟩ => ⟨S262144x3, .f32⟩
  | .hbm, ⟨27, _⟩ => ⟨S262144x3, .f32⟩
  | .hbm, ⟨28, _⟩ => ⟨S_, .f32⟩
  | .hbm, ⟨29, _⟩ => ⟨S262144, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S262144x1, .f32⟩
  | .hbm, ⟨40, _⟩ => ⟨S1x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S262144x256, .f32⟩
  | .hbm, ⟨49, _⟩ => ⟨S_, .f32⟩
  | .hbm, ⟨50, _⟩ => ⟨S262144x256, .f32⟩
  | .hbm, ⟨51, _⟩ => ⟨S262144x256, .f32⟩
  | .hbm, ⟨52, _⟩ => ⟨S262144x256, .f32⟩
  | .hbm, ⟨53, _⟩ => ⟨S_, .f32⟩
  | .hbm, ⟨54, _⟩ => ⟨S262144x256, .f32⟩
  | .hbm, ⟨55, _⟩ => ⟨S262144x256, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x256, .f32⟩
  | .hbm, ⟨65, _⟩ => ⟨S262144x256, .f32⟩
  | .hbm, ⟨66, _⟩ => ⟨S_, .f32⟩
  | .hbm, ⟨67, _⟩ => ⟨S32768x256, .f32⟩
  | .hbm, ⟨68, _⟩ => ⟨S262144x1, .i32⟩
  | .hbm, ⟨69, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  h_S_ : 0 < S_.numel
  slices_S128_S1_1 : S128.Slices ![1] S1
  shapeCasts_S1_S_ : S1.ShapeCasts S_
  slices_S128_S1_0 : S128.Slices ![0] S1
  bcast_S128_S1x128_1 : S128.BroadcastsInDim S1x128 (![1] : Fin 1 → Fin S1x128.rank)
  bcast_S262144x1_S262144x128_0_1 : S262144x1.BroadcastsInDim S262144x128 (![0, 1] : Fin 2 → Fin S262144x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S262144x256 : S_.BroadcastsInDim S262144x256 (![] : Fin 0 → Fin S262144x256.rank)
  bcast_S_S32768x256 : S_.BroadcastsInDim S32768x256 (![] : Fin 0 → Fin S32768x256.rank)
  gather_S32768x3_S262144x1_S262144x3_1_0_n_n_0_1_13_wf : GatherDims.WF S32768x3 S262144x1 S262144x3 [1] [0] [] [0] [] 1 ![1, 3]
  dot_S262144x128_S128x256_S262144x256_1_0_0_1_n_n_wf : DotDims.WF S262144x128 S128x256 S262144x256 [1] [0] [0] [1] [] []
  dot_S262144x256_S256x256_S262144x256_1_0_0_1_n_n_wf : DotDims.WF S262144x256 S256x256 S262144x256 [1] [0] [0] [1] [] []
  gather_S32768x256_S262144x1_S262144x256_1_0_n_n_0_1_1256_wf : GatherDims.WF S32768x256 S262144x1 S262144x256 [1] [0] [] [0] [] 1 ![1, 256]
  scatter_S32768x256_S262144x1_S262144x256_1_0_0_1_wf : ScatterDims.WF S32768x256 S262144x1 S262144x256 [1] [0] [0] 1

variable [Facts₀]

def gather_S32768x3_S262144x1_S262144x3_1_0_n_n_0_1_13 : GatherDims S32768x3 S262144x1 S262144x3 where
  offsetDims := [1]
  collapsedSliceDims := [0]
  operandBatchingDims := []
  startIndicesBatchingDims := []
  startIndexMap := [0]
  indexVectorDim := 1
  sliceSizes := ![1, 3]
  wf := gather_S32768x3_S262144x1_S262144x3_1_0_n_n_0_1_13_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def gather_S32768x256_S262144x1_S262144x256_1_0_n_n_0_1_1256 : GatherDims S32768x256 S262144x1 S262144x256 where
  offsetDims := [1]
  collapsedSliceDims := [0]
  operandBatchingDims := []
  startIndicesBatchingDims := []
  startIndexMap := [0]
  indexVectorDim := 1
  sliceSizes := ![1, 256]
  wf := gather_S32768x256_S262144x1_S262144x256_1_0_n_n_0_1_1256_wf
def scatter_S32768x256_S262144x1_S262144x256_1_0_0_1 : ScatterDims S32768x256 S262144x1 S262144x256 where
  updateWindowDims := [1]
  insertedWindowDims := [0]
  scatterDimsToOperandDims := [0]
  indexVectorDim := 1
  wf := scatter_S32768x256_S262144x1_S262144x256_1_0_0_1_wf

class Facts : Prop extends Facts₀ where

variable [Facts]
-- ==== Proof.Spec.lean ====
/-
  The radial-basis weight in two arrangements, and the message one edge sends along one feature column.

  Write g = 1 / ((a - b)·(a - b)) for two DISTINCT reals a, b (the first two centres), and s = √g. One program scales the
  squared distance D and the centre μ by s before it subtracts and squares, and negates by subtracting from zero:
      exp (0 - (D·s - μ·s)·(D·s - μ·s)),
  the other multiplies the squared difference by -g:
      exp ((-g)·((D - μ)·(D - μ))).
  Because a ≠ b, g is a positive real, so s is a positive real with s·s = g. For a real D the two exponents are the same
  real number, -(g·(D - μ)²), by distributivity over the reals. For D = +∞ or -∞ both exponents are -∞ (a positive
  factor keeps the sign of an infinity, the square of an infinity is +∞, and -g < 0), so both weights are 0.
  Where a = b the law fails: g = +∞, and at D = μ > 0 the first weight is 0 and the second is 1.

  The message of an edge at feature column c is
      x · max (Σ_k2 max (Σ_k1 rbf k1 · W1 k1 k2) 0 · W2 k2 c) 0,
  a function of the edge's 128 weights, the two weight matrices and the gathered feature x alone.
-/
import Idealize.ShloMosaic.PureOps.Ideal.Laws

noncomputable section

open scoped BigOperators

namespace Cert.CFConv

open Idealize.ShloMosaic

/-- The word of `+0.0`. -/
abbrev zeroF : EReal := Ideal.ofBits .f32 0x00000000#32
/-- The word of `1.0`. -/
abbrev oneF : EReal := Ideal.ofBits .f32 0x3F800000#32

theorem zeroF_eq : zeroF = 0 := Ideal.ofBits_zero_f32

/-- The word `0x3F800000` denotes the real 1. -/
theorem oneF_eq : oneF = 1 := by
  simp [oneF, Ideal.ofBits, Ideal.ieee, -EReal.coe_mul]; norm_num

/-- g = 1 / ((a - b)·(a - b)), as the programs compute it. -/
def gammaOf (a b : EReal) : EReal := Ideal.div oneF ((a - b) * (a - b))

/-- The weight with both operands already scaled: exp (0 - (d - μs)·(d - μs)). -/
def rbfScaled (d mus : EReal) : EReal := Ideal.exp (zeroF - ((d - mus) * (d - mus)))

/-- The weight with the squared difference multiplied by `ng` (which will be -g): exp (ng·((D - μ)·(D - μ))). -/
def rbfPlain (ng D mu : EReal) : EReal := Ideal.exp (ng * ((D - mu) * (D - mu)))

/-- The message of one edge at one feature column. -/
def msgAt (rbf : Fin 128 → EReal) (w1 : Fin 128 → Fin 256 → EReal) (w2 : Fin 256 → Fin 256 → EReal) (x : EReal)
    (col : Fin 256) : EReal :=
  x * max (∑ k2 : Fin 256, max (∑ k1 : Fin 128, rbf k1 * w1 k1 k2) zeroF * w2 k2 col) zeroF

theorem msgAt_congr {rbf rbf' : Fin 128 → EReal} (h : ∀ k, rbf k = rbf' k) (w1 : Fin 128 → Fin 256 → EReal)
    (w2 : Fin 256 → Fin 256 → EReal) (x : EReal) (col : Fin 256) : msgAt rbf w1 w2 x col = msgAt rbf' w1 w2 x col := by
  have e : rbf = rbf' := funext h
  rw [e]

/-- For distinct reals, g is the positive real 1 / ((a - b)·(a - b)). -/
theorem gammaOf_coe (a b : ℝ) (hab : a ≠ b) : gammaOf a b = ((1 / ((a - b) * (a - b)) : ℝ) : EReal) := by
  have h : (a - b) * (a - b) ≠ 0 := mul_ne_zero (sub_ne_zero.mpr hab) (sub_ne_zero.mpr hab)
  unfold gammaOf
  rw [← EReal.coe_sub, ← EReal.coe_mul, Ideal.div_coe h, oneF_eq, one_mul]

/-- THE LAW: scaling both operands by √g before squaring is multiplying the square by g, on every extended real D. -/
theorem rbf_law (a b mu : ℝ) (hab : a ≠ b) (D : EReal) :
    rbfScaled (D * Ideal.sqrt (gammaOf a b)) ((mu : EReal) * Ideal.sqrt (gammaOf a b))
      = rbfPlain (-(gammaOf a b)) D mu := by
  have hd : (a - b) * (a - b) > 0 := mul_self_pos.mpr (sub_ne_zero.mpr hab)
  have hg : (0 : ℝ) < 1 / ((a - b) * (a - b)) := one_div_pos.mpr hd
  have hs : 0 < Real.sqrt (1 / ((a - b) * (a - b))) := Real.sqrt_pos.mpr hg
  have hss : Real.sqrt (1 / ((a - b) * (a - b))) * Real.sqrt (1 / ((a - b) * (a - b))) = 1 / ((a - b) * (a - b)) :=
    Real.mul_self_sqrt hg.le
  rw [gammaOf_coe a b hab, Ideal.sqrt_coe, if_neg (not_lt.mpr hg.le)]
  generalize 1 / ((a - b) * (a - b)) = g at hg hs hss
  generalize Real.sqrt g = s at hs hss
  unfold rbfScaled rbfPlain
  rw [zeroF_eq]
  induction D using EReal.rec with
  | bot =>
    rw [EReal.bot_mul_coe_of_pos hs, ← EReal.coe_mul, EReal.bot_sub, EReal.bot_mul_bot, zero_sub, EReal.neg_top,
      EReal.bot_sub, EReal.bot_mul_bot, ← EReal.coe_neg, EReal.coe_mul_top_of_neg (neg_neg_of_pos hg)]
  | coe x =>
    rw [← EReal.coe_mul, ← EReal.coe_mul, ← EReal.coe_sub, ← EReal.coe_mul, ← EReal.coe_zero, ← EReal.coe_sub,
      ← EReal.coe_neg, ← EReal.coe_sub, ← EReal.coe_mul, ← EReal.coe_mul, Ideal.exp_coe, Ideal.exp_coe]
    have e : (0 : ℝ) - (x * s - mu * s) * (x * s - mu * s) = -g * ((x - mu) * (x - mu)) := by rw [← hss]; ring
    rw [e]
  | top =>
    rw [EReal.top_mul_coe_of_pos hs, ← EReal.coe_mul, EReal.top_sub_coe, EReal.top_mul_top, zero_sub, EReal.neg_top,
      EReal.top_sub_coe, EReal.top_mul_top, ← EReal.coe_neg, EReal.coe_mul_top_of_neg (neg_neg_of_pos hg)]

end Cert.CFConv

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.KernelPay.lean ====
/-
  The kernel body's stored value, read at an entry.

  The body loads a 2048 × 1 column d of scaled squared distances, the 1 × 128 row of scaled centres, the two weight
  matrices and a 2048 × 256 block x of gathered features, and stores x · max ((max (w · W1) 0) · W2) 0, where
  w (r, k) = exp (0 - (d r - μs k)·(d r - μs k)). A change of float format is the identity at the ideal instance, a
  column broadcast along the columns reads its row's entry and a row broadcast along the rows its column's entry, and
  a matrix product into a zero accumulator is, entry by entry, the sum over the contracted axis. So entry (r, c) of the
  stored block depends on row r of d and of x only: it is the message formula at that row's weights.
-/
import proofs.«165563_j9560597201471_1_alg».proof.Proof.Gen.KernelIdeal.Skeleton
import proofs.«165563_j9560597201471_1_alg».proof.Proof.Spec
import proofs.«165563_j9560597201471_1_alg».proof.Proof.LibRowOps
import Idealize.ShloMosaic.Lib.Pipeline.Value
import Idealize.ShloMosaic.Lib.ValueIdx

noncomputable section

open scoped BigOperators

namespace Cert.CFConv.Ker

open Idealize.ShloMosaic Idealize.ShloMosaic.ValueIdx Cert.KernelIdeal Cert.KernelIdeal.Gen Cert.CFConv Cert.RowOps

/-- A 1 × N row broadcast along R rows reads, at (r, c), the row's entry at column c. -/
theorem broadcastTo_1b_ab_apply {R N : ℕ} {α : Type} (v : (⟨2, ![1, N]⟩ : Shape).Idx → α)
    (h : (⟨2, ![1, N]⟩ : Shape).Broadcasts ⟨2, ![R, N]⟩) (r : Fin R) (c : Fin N) :
    broadcastTo ⟨2, ![R, N]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if N = 1 then 0 else c.val
    split
    · have := c.isLt; omega
    · rfl

/-- The weight at (r, k): the exponential of zero minus the squared difference of row r's scaled distance and the
    k-th scaled centre. -/
theorem weight_apply (d : FVec Ideal S2048x1 .f32) (ms : FVec Ideal S1x128 .f32)
    (hb0 : S2048x1.Broadcasts S2048x128) (hb1 : S1x128.Broadcasts S2048x128) (r : Fin 2048) (k : Fin 128) :
    exp (subf (broadcast S2048x128 (Scalar.ofBits (F := Ideal) .f32 0x00000000#32))
        (mulf (subf (broadcastTo S2048x128 d hb0) (broadcastTo S2048x128 ms hb1))
          (subf (broadcastTo S2048x128 d hb0) (broadcastTo S2048x128 ms hb1)))) (ix2 r k)
      = rbfScaled (d (ix2 r (0 : Fin 1))) (ms (ix2 (0 : Fin 1) k)) := by
  show Ideal.exp (Ideal.ofBits .f32 0x00000000#32
      - ((broadcastTo S2048x128 d hb0 (ix2 r k) - broadcastTo S2048x128 ms hb1 (ix2 r k))
        * (broadcastTo S2048x128 d hb0 (ix2 r k) - broadcastTo S2048x128 ms hb1 (ix2 r k)))) = _
  rw [broadcastTo_a1_ab_apply, broadcastTo_1b_ab_apply]
  rfl

/-- THE STORED VALUE AT AN ENTRY is the message formula of that row. -/
theorem pay_apply (x0 : Vec Ideal S2048x1 .f32) (x1 : Vec Ideal S1x128 .f32) (x2 : Vec Ideal S128x256 .bf16)
    (x3 : Vec Ideal S256x256 .bf16) (x4 : Vec Ideal S2048x256 .f32) (r : Fin 2048) (col : Fin 256) :
    k0_pay1 (F := Ideal) x0 x1 x2 x3 x4 (ix2 r col)
      = msgAt (fun k => rbfScaled (x0 (ix2 r (0 : Fin 1))) (x1 (ix2 (0 : Fin 1) k))) (fun k1 k2 => x2 (ix2 k1 k2))
          (fun k2 c => x3 (ix2 k2 c)) (x4 (ix2 r col)) col := by
  unfold k0_pay1 msgAt
  simp only [shapeCast_self]
  rw [mulf_apply, maximumf_apply, broadcast_apply]
  refine congrArg (fun t => x4 (ix2 r col) * max t _) ?_
  refine (matmul_row_apply (φ₁ := .bf16) (φ₂ := .bf16) dot_S2048x256_S256x256_S2048x256_1_0_0_1_n_n rfl rfl rfl rfl rfl rfl none _ _ r col).trans ?_
  refine Finset.sum_congr rfl fun k2 _ => ?_
  rw [truncf_apply, maximumf_apply, broadcast_apply]
  refine congrArg (fun t => max t _ * x3 (ix2 k2 col)) ?_
  refine (matmul_row_apply (φ₁ := .bf16) (φ₂ := .bf16) dot_S2048x128_S128x256_S2048x256_1_0_0_1_n_n rfl rfl rfl rfl rfl rfl none _ _ r k2).trans ?_
  refine Finset.sum_congr rfl fun k1 _ => ?_
  rw [truncf_apply, weight_apply]

end Cert.CFConv.Ker

end
-- ==== Proof.KernelEntry.lean ====
/-
  What the host computes before the kernel region, named once: the arrays the region's five input windows read.

  A node index below zero is wrapped by adding the node count. The squared distance of edge e is the sum over the three
  coordinates of the squared difference of its two end points' positions. With μ the vector of centres,
  g = 1 / ((μ 1 - μ 0)·(μ 1 - μ 0)), and the host hands the kernel the squared distances as a column scaled by √g, the
  centres as a row scaled by √g, the two weight matrices, and the feature rows gathered at the source nodes.
-/
import proofs.«165563_j9560597201471_1_alg».proof.Proof.Gen.KernelIdeal

noncomputable section

namespace Cert.CFConv.Ker

open Idealize.ShloMosaic Cert.KernelIdeal Cert.KernelIdeal.Facts₀ Cert.KernelIdeal.Facts

variable {F : FTy → Type} [FloatOps F]

/-- A node index as a gather's start index: wrapped when negative, then made a column. -/
def wrapIdx (x : IVec S262144 32) : IVec S262144x1 32 :=
  broadcastInDim S262144x1 ![0] bcast_S262144_S262144x1_0
    (select (cmpi .slt x (broadcastInDim S262144 ![] bcast_S_S262144 (constantI S_ 32 0#32)))
      (addi x (broadcastInDim S262144 ![] bcast_S_S262144 (constantI S_ 32 32768#32))) x)

/-- The position differences of every edge's end points, coordinate by coordinate. -/
def posDiff (x1 : FVec F S32768x3 .f32) (x5 x6 : IVec S262144 32) : FVec F S262144x3 .f32 :=
  subf (Host.gather gather_S32768x3_S262144x1_S262144x3_1_0_n_n_0_1_13 x1 (wrapIdx x5))
    (Host.gather gather_S32768x3_S262144x1_S262144x3_1_0_n_n_0_1_13 x1 (wrapIdx x6))

/-- The squared distance of every edge. -/
def sqDist (x1 : FVec F S32768x3 .f32) (x5 x6 : IVec S262144 32) : FVec F S262144 .f32 :=
  Host.reduceAdd (mulf (posDiff x1 x5 x6) (posDiff x1 x5 x6)) (constant S_ .f32 0x00000000#32)
    reducesTo_S262144x3_S262144_d1 h_S_

/-- μ 1 and μ 0 as scalars. -/
def mu1 (x4 : FVec F S128 .f32) : FVec F S_ .f32 :=
  shapeCast S_ (extractStridedSlice S1 ![1] x4 slices_S128_S1_1) shapeCasts_S1_S_
def mu0 (x4 : FVec F S128 .f32) : FVec F S_ .f32 :=
  shapeCast S_ (extractStridedSlice S1 ![0] x4 slices_S128_S1_0) shapeCasts_S1_S_

/-- √g, as a scalar. -/
def sqrtGamma (x4 : FVec F S128 .f32) : FVec F S_ .f32 :=
  Host.sqrt (Host.divf (constant S_ .f32 0x3F800000#32)
    (mulf (subf (mu1 x4) (mu0 x4)) (subf (mu1 x4) (mu0 x4))))

/-- The squared distances scaled by √g, as a column. -/
def dScaled (x1 : FVec F S32768x3 .f32) (x4 : FVec F S128 .f32) (x5 x6 : IVec S262144 32) : FVec F S262144x1 .f32 :=
  shapeCast S262144x1 (mulf (sqDist x1 x5 x6) (broadcastInDim S262144 ![] bcast_S_S262144 (sqrtGamma x4)))
    shapeCasts_S262144_S262144x1

/-- The centres scaled by √g, as a row. -/
def muScaled (x4 : FVec F S128 .f32) : FVec F S1x128 .f32 :=
  shapeCast S1x128 (mulf x4 (broadcastInDim S128 ![] bcast_S_S128 (sqrtGamma x4))) shapeCasts_S128_S1x128

/-- The feature rows gathered at every edge's source node. -/
def xSrc (x0 : FVec F S32768x256 .f32) (x5 : IVec S262144 32) : FVec F S262144x256 .f32 :=
  Host.gather gather_S32768x256_S262144x1_S262144x256_1_0_n_n_0_1_1256 x0 (wrapIdx x5)

end Cert.CFConv.Ker

end
-- ==== Proof.KernelValue.lean ====
/-
  The kernel region's output array, and the program's result.

  The region runs 128 grid points; point t loads rows 2048·t … 2048·t + 2047 of the scaled-distance column and of the
  gathered features, the whole scaled-centre row and both weight matrices, and writes back the same rows of the
  message array. Entry (r, c) of the stored block is the message formula of row r (the payload lemma), and row r of
  block t is row 2048·t + r of the arrays, so what point t writes back is block t of ONE whole-array function of the
  five arrays the windows read. The 128 blocks tile the 262144 rows, so after the run the array IS that function.
  The host then scatter-adds the message rows into the node array.
-/
import proofs.«165563_j9560597201471_1_alg».proof.Proof.Gen.KernelIdeal.Frame
import proofs.«165563_j9560597201471_1_alg».proof.Proof.KernelPay
import proofs.«165563_j9560597201471_1_alg».proof.Proof.KernelEntry
import Idealize.ShloMosaic.Lib.Pipeline.Value
import Idealize.ShloMosaic.Lib.StableHlo.Run
import Idealize.ShloMosaic.PureOps.Ideal

set_option maxRecDepth 16384

noncomputable section

open scoped BigOperators

namespace Cert.CFConv.Ker

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.CFConv

variable (m : (ℓ : Loc nD τ sig) → Buf (Elt Ideal) ℓ)

/-- The message array as ONE function of the five arrays the region's input windows read. -/
def msgArr (d : S262144x1.Idx → EReal) (ms : S1x128.Idx → EReal) (w1 : S128x256.Idx → EReal)
    (w2 : S256x256.Idx → EReal) (xs : S262144x256.Idx → EReal) : S262144x256.Idx → EReal := fun i =>
  msgAt (fun k => rbfScaled (d (ix2 (i 0) (0 : Fin 1))) (ms (ix2 (0 : Fin 1) k))) (fun k1 k2 => w1 (ix2 k1 k2))
    (fun k2 c => w2 (ix2 k2 c)) (xs i) (i 1)

theorem hz : (![0, 0] : Fin 2 → Nat) = fun _ => 0 := funext fun a => by fin_cases a <;> rfl

/-- The stored value at any entry of the block. -/
theorem pay_at (x0 : Vec Ideal S2048x1 .f32) (x1 : Vec Ideal S1x128 .f32) (x2 : Vec Ideal S128x256 .bf16)
    (x3 : Vec Ideal S256x256 .bf16) (x4 : Vec Ideal S2048x256 .f32) (y : S2048x256.Idx) :
    k0_pay1 (F := Ideal) x0 x1 x2 x3 x4 y
      = msgAt (fun k => rbfScaled (x0 (ix2 (y 0) (0 : Fin 1))) (x1 (ix2 (0 : Fin 1) k))) (fun k1 k2 => x2 (ix2 k1 k2))
          (fun k2 c => x3 (ix2 k2 c)) (x4 y) (y 1) := by
  obtain ⟨r, q, rfl⟩ : ∃ (r : Fin 2048) (q : Fin 256), y = ix2 r q := ⟨y 0, y 1, eq_ix2 y⟩
  exact pay_apply x0 x1 x2 x3 x4 r q

/-- The printed index maps over the grid: the row-blocked windows are at block row t, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The stored block as a function of the block index. -/
theorem pay_fun (x0 : Vec Ideal S2048x1 .f32) (x1 : Vec Ideal S1x128 .f32) (x2 : Vec Ideal S128x256 .bf16)
    (x3 : Vec Ideal S256x256 .bf16) (x4 : Vec Ideal S2048x256 .f32) :
    k0_pay1 (F := Ideal) x0 x1 x2 x3 x4
      = fun y => msgAt (fun k => rbfScaled (x0 (ix2 (y 0) (0 : Fin 1))) (x1 (ix2 (0 : Fin 1) k)))
          (fun k1 k2 => x2 (ix2 k1 k2)) (fun k2 c => x3 (ix2 k2 c)) (x4 y) (y 1) :=
  funext (pay_at x0 x1 x2 x3 x4)

/-- Every block row of the output is SOME point's. -/
theorem idx_onto : ∀ q0 : Fin 128, ∃ t : Fin cfg0.N, win0_5.index t = ![q0.val, 0] :=
  (by decide +kernel : ∀ q0 : Fin 128, ∃ t : Fin grid0.N, win0_5.index t = ![q0.val, 0])

/-- The scaled-centre row is one block, the same at every point. -/
theorem blk1 (c : Dev nD) (t : Fin cfg0.N) (k : Fin 128) :
    iblk m c 1 t (ix2 (0 : Fin 1) k) = V m c main_v37 (ix2 (0 : Fin 1) k) := by
  obtain ⟨-, -, e2, e3, -⟩ := idx_facts t
  show V m c main_v37 (((cfg0.win 1).blk t).view.emb (ix2 (0 : Fin 1) k)) = _
  refine congrArg (V m c main_v37) (funext fun a => Fin.ext ?_)
  match a with
  | ⟨0, _⟩ => show win0_1.index t (0 : Fin 2) * 1 + 1 * 0 = 0; omega
  | ⟨1, _⟩ => show win0_1.index t (1 : Fin 2) * 128 + 1 * k.val = k.val; omega

/-- The first weight matrix is one block, the same at every point. -/
theorem blk2 (c : Dev nD) (t : Fin cfg0.N) (k1 : Fin 128) (k2 : Fin 256) :
    iblk m c 2 t (ix2 k1 k2) = V m c main_v38 (ix2 k1 k2) := by
  obtain ⟨-, -, -, -, e4, e5, -⟩ := idx_facts t
  show V m c main_v38 (((cfg0.win 2).blk t).view.emb (ix2 k1 k2)) = _
  refine congrArg (V m c main_v38) (funext fun a => Fin.ext ?_)
  match a with
  | ⟨0, _⟩ => show win0_2.index t (0 : Fin 2) * 128 + 1 * k1.val = k1.val; omega
  | ⟨1, _⟩ => show win0_2.index t (1 : Fin 2) * 256 + 1 * k2.val = k2.val; omega

/-- The second weight matrix is one block, the same at every point. -/
theorem blk3 (c : Dev nD) (t : Fin cfg0.N) (k2 : Fin 256) (c' : Fin 256) :
    iblk m c 3 t (ix2 k2 c') = V m c main_v39 (ix2 k2 c') := by
  obtain ⟨-, -, -, -, -, -, e6, e7, -⟩ := idx_facts t
  show V m c main_v39 (((cfg0.win 3).blk t).view.emb (ix2 k2 c')) = _
  refine congrArg (V m c main_v39) (funext fun a => Fin.ext ?_)
  match a with
  | ⟨0, _⟩ => show win0_3.index t (0 : Fin 2) * 256 + 1 * k2.val = k2.val; omega
  | ⟨1, _⟩ => show win0_3.index t (1 : Fin 2) * 256 + 1 * c'.val = c'.val; omega

set_option maxHeartbeats 1000000 in
/-- WHAT POINT t WRITES BACK is block t of the message array of the five arrays as the region finds them. -/
theorem flushed_eq (c : Dev nD) (t : Fin cfg0.N) :
    (dats m 0 c).flushed 5 t = ((cfg0.win 5).blk t).view.read (Elt Ideal)
      (msgArr (V m c main_v34) (V m c main_v37) (V m c main_v38) (V m c main_v39) (V m c main_v23)) := by
  show (cfg0.win 5).cut (grid0.coords t) ((dats m 0 c).after 5 t) = _
  rw [after0_5]
  unfold out0_5
  rw [View.canon_unit_zero hz]
  simp only [View.ld_unit_zero (S := S2048x1) hz, View.ld_unit_zero (S := S1x128) hz, View.ld_unit_zero (S := S128x256) hz,
    View.ld_unit_zero (S := S256x256) hz, View.ld_unit_zero (S := S2048x256) hz]
  rw [pay_fun]
  obtain ⟨e0, e1, e2, e3, e4, e5, e6, e7, e8, e9, e10, e11⟩ := idx_facts t
  funext j
  show msgAt (fun k => rbfScaled (iblk m c 0 t (ix2 (j 0) (0 : Fin 1))) (iblk m c 1 t (ix2 (0 : Fin 1) k)))
        (fun k1 k2 => iblk m c 2 t (ix2 k1 k2)) (fun k2 c' => iblk m c 3 t (ix2 k2 c')) (iblk m c 4 t j) (j 1)
      = msgArr (V m c main_v34) (V m c main_v37) (V m c main_v38) (V m c main_v39) (V m c main_v23)
          (((cfg0.win 5).blk t).view.emb j)
  have h0 : iblk m c 0 t (ix2 (j 0) (0 : Fin 1))
      = V m c main_v34 (ix2 ((((cfg0.win 5).blk t).view.emb j) 0) (0 : Fin 1)) := by
    show V m c main_v34 (((cfg0.win 0).blk t).view.emb (ix2 (j 0) (0 : Fin 1))) = _
    refine congrArg (V m c main_v34) (funext fun a => Fin.ext ?_)
    match a with
    | ⟨0, _⟩ => show win0_0.index t (0 : Fin 2) * 2048 + 1 * (j 0).val = win0_5.index t (0 : Fin 2) * 2048 + 1 * (j 0).val; omega
    | ⟨1, _⟩ => show win0_0.index t (1 : Fin 2) * 1 + 1 * 0 = 0; omega
  have h1 := blk1 m c t
  have h2 := blk2 m c t
  have h3 := blk3 m c t
  have h4 : iblk m c 4 t j = V m c main_v23 (((cfg0.win 5).blk t).view.emb j) := by
    show V m c main_v23 (((cfg0.win 4).blk t).view.emb j) = _
    refine congrArg (V m c main_v23) (funext fun a => Fin.ext ?_)
    match a with
    | ⟨0, _⟩ => show win0_4.index t (0 : Fin 2) * 2048 + 1 * (j 0).val = win0_5.index t (0 : Fin 2) * 2048 + 1 * (j 0).val; omega
    | ⟨1, _⟩ => show win0_4.index t (1 : Fin 2) * 256 + 1 * (j 1).val = win0_5.index t (1 : Fin 2) * 256 + 1 * (j 1).val; omega
  have h5 : (j 1 : Fin 256) = (((cfg0.win 5).blk t).view.emb j) 1 :=
    Fin.ext (show (j 1).val = win0_5.index t (1 : Fin 2) * 256 + 1 * (j 1).val by omega)
  have hA : (fun k : Fin 128 => rbfScaled (iblk m c 0 t (ix2 (j 0) (0 : Fin 1))) (iblk m c 1 t (ix2 (0 : Fin 1) k)))
      = fun k : Fin 128 => rbfScaled (V m c main_v34 (ix2 ((((cfg0.win 5).blk t).view.emb j) 0) (0 : Fin 1)))
          (V m c main_v37 (ix2 (0 : Fin 1) k)) := funext fun k => by rw [h0, h1 k]
  have hB : (fun (k1 : Fin 128) (k2 : Fin 256) => iblk m c 2 t (ix2 k1 k2)) = fun k1 k2 => V m c main_v38 (ix2 k1 k2) :=
    funext fun k1 => funext fun k2 => h2 k1 k2
  have hC : (fun (k2 : Fin 256) (c' : Fin 256) => iblk m c 3 t (ix2 k2 c')) = fun k2 c' => V m c main_v39 (ix2 k2 c') :=
    funext fun k2 => funext fun c' => h3 k2 c'
  exact congr (congr (congr (congr (congrArg msgAt hA) hB) hC) h4) h5

/-- An index of the array is in point t's block iff each coordinate is in the block's range on its axis. -/
theorem mem_blk (t : Fin cfg0.N) (i : S262144x256.Idx) :
    i ∈ ((cfg0.win 5).blk t).view.set ↔ ∀ a : Fin 2, win0_5.index t a * S2048x256.size a ≤ (i a).val
      ∧ (i a).val < win0_5.index t a * S2048x256.size a + S2048x256.size a := by
  show i ∈ ((View.whole main_v40).slice (win0_5.rect t)).set ↔ _
  rw [View.set_slice_whole, Rect.mem_set_unit]
  exact Iff.rfl

/-- The 128 blocks tile the rows: row i is in the block of point i / 2048. -/
theorem covered (i : S262144x256.Idx) :
    ∃ t : Fin cfg0.N, (cfg0.win 5).flush t = true ∧ i ∈ ((cfg0.win 5).blk t).view.set := by
  have hi0 : (i 0).val < 262144 := (i 0).isLt
  have hi1 : (i 1).val < 256 := (i 1).isLt
  obtain ⟨t, ht⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 256 ≤ (i 1).val ∧ (i 1).val < win0_5.index t (1 : Fin 2) * 256 + 256; omega

/-- THE ARRAY after the run: the message array of the five arrays as the region finds them. -/
theorem final (c : Dev nD) : (dats m 0 c).arrAt 5 cfg0.N
    = msgArr (V m c main_v34) (V m c main_v37) (V m c main_v38) (V m c main_v39) (V m c main_v23) :=
  (dats m 0 c).arrAt_eq_of_cover 5 _ (fun t _ => flushed_eq m c t) covered

end Cert.CFConv.Ker

end
-- ==== Proof.KernelEntryV.lean ====
/-
  The region's five input arrays are what the host computed before it: the scaled squared distances, the scaled
  centres, the two weight matrices (a change of float format) and the gathered feature rows, each a composition of the
  host operations over the program's arguments as launched.
-/
import proofs.«165563_j9560597201471_1_alg».proof.Proof.Gen.KernelIdeal.Frame
import proofs.«165563_j9560597201471_1_alg».proof.Proof.KernelEntry
import Idealize.ShloMosaic.Lib.StableHlo.Run

set_option maxRecDepth 16384

noncomputable section

namespace Cert.CFConv.Ker

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- Window 0 reads the scaled squared distances. -/
theorem V_dScaled (c : Dev nD) : V m c main_v34
    = dScaled (m ((c : Thread nD τ).loc main_arg1)) (m ((c : Thread nD τ).loc main_arg4))
        (m ((c : Thread nD τ).loc main_arg5)) (m ((c : Thread nD τ).loc main_arg6)) := by
  show StableHlo.after hostOps0 (fun b => m (c, b)) (Proc.devRef .tc main_v34) = _
  after_results_simp <;> rfl

set_option maxHeartbeats 4000000 in
/-- Window 1 reads the scaled centres. -/
theorem V_muScaled (c : Dev nD) : V m c main_v37 = muScaled (m ((c : Thread nD τ).loc main_arg4)) := by
  show StableHlo.after hostOps0 (fun b => m (c, b)) (Proc.devRef .tc main_v37) = _
  after_results_simp <;> rfl

set_option maxHeartbeats 4000000 in
/-- Window 2 reads the first weight matrix in the narrower float format. -/
theorem V_w1 (c : Dev nD) : V m c main_v38 = truncf .bf16 (m ((c : Thread nD τ).loc main_arg2)) bitsLt_bf16_f32 := by
  show StableHlo.after hostOps0 (fun b => m (c, b)) (Proc.devRef .tc main_v38) = _
  after_results_simp <;> rfl

set_option maxHeartbeats 4000000 in
/-- Window 3 reads the second weight matrix in the narrower float format. -/
theorem V_w2 (c : Dev nD) : V m c main_v39 = truncf .bf16 (m ((c : Thread nD τ).loc main_arg3)) bitsLt_bf16_f32 := by
  show StableHlo.after hostOps0 (fun b => m (c, b)) (Proc.devRef .tc main_v39) = _
  after_results_simp <;> rfl

set_option maxHeartbeats 4000000 in
/-- Window 4 reads the feature rows gathered at the source nodes. -/
theorem V_xSrc (c : Dev nD) : V m c main_v23
    = xSrc (m ((c : Thread nD τ).loc main_arg0)) (m ((c : Thread nD τ).loc main_arg5)) := by
  show StableHlo.after hostOps0 (fun b => m (c, b)) (Proc.devRef .tc main_v23) = _
  after_results_simp <;> rfl

end Cert.CFConv.Ker

end
-- ==== Proof.KernelTail.lean ====
/-
  The kernel program's result as one function of its arguments.

  After the region the host scatter-adds the rows of the region's output array into a zero node array at the
  destination indices. The destination indices are an argument no host operation and no window writes, so the tail
  reads them as launched; the output array is the message array of what the host computed before the region.
-/
import proofs.«165563_j9560597201471_1_alg».proof.Proof.KernelValue
import proofs.«165563_j9560597201471_1_alg».proof.Proof.KernelEntryV
import Idealize.ShloMosaic.Lib.StableHlo.Run
import Idealize.ShloMosaic.Lib.Pipeline.FrameSuffix

set_option maxRecDepth 16384

noncomputable section

namespace Cert.CFConv.Ker

open Idealize.ShloMosaic Idealize.ShloMosaic.TcCoe Idealize.ShloMosaic.ValueIdx Idealize.SL.Sem Idealize.ShloMosaic.StableHlo
open Cert.KernelIdeal Cert.KernelIdeal.Gen Cert.CFConv

/-- The node array the program returns: the message rows scatter-added at the destination indices. -/
def result (x0 : FVec Ideal S32768x256 .f32) (x1 : FVec Ideal S32768x3 .f32) (x2 : FVec Ideal S128x256 .f32)
    (x3 : FVec Ideal S256x256 .f32) (x4 : FVec Ideal S128 .f32) (x5 x6 : IVec S262144 32) : FVec Ideal S32768x256 .f32 :=
  Host.scatterAdd scatter_S32768x256_S262144x1_S262144x256_1_0_0_1
    (broadcastInDim S32768x256 ![] Facts₀.bcast_S_S32768x256 (constant S_ .f32 0x00000000#32))
    (broadcastInDim S262144x1 ![0] Facts₀.bcast_S262144_S262144x1_0 x6)
    (msgArr (dScaled x1 x4 x5 x6) (muScaled x4) (truncf .bf16 x2 Facts₀.bitsLt_bf16_f32) (truncf .bf16 x3 Facts₀.bitsLt_bf16_f32)
      (xSrc x0 x5))

variable (m : (ℓ : Loc nD τ sig) → Buf (Elt Ideal) ℓ)

/-- The region's output array after the run, as a function of the program's arguments. -/
theorem final_args (c : Dev nD) : (dats m 0 c).arrAt 5 cfg0.N
    = msgArr (dScaled (F := Ideal) (m ((c : Thread nD τ).loc main_arg1)) (m ((c : Thread nD τ).loc main_arg4))
          (m ((c : Thread nD τ).loc main_arg5)) (m ((c : Thread nD τ).loc main_arg6)))
        (muScaled (F := Ideal) (m ((c : Thread nD τ).loc main_arg4)))
        (truncf (F := Ideal) .bf16 (m ((c : Thread nD τ).loc main_arg2)) Facts₀.bitsLt_bf16_f32)
        (truncf (F := Ideal) .bf16 (m ((c : Thread nD τ).loc main_arg3)) Facts₀.bitsLt_bf16_f32)
        (xSrc (F := Ideal) (m ((c : Thread nD τ).loc main_arg0)) (m ((c : Thread nD τ).loc main_arg5))) := by
  rw [final m c, V_dScaled, V_muScaled, V_w1, V_w2, V_xSrc]

/-- What the lines after the region leave in the result buffer. -/
theorem tail_eq (c : Dev nD) :
    Pipeline.afterTail₀ cfgs (dats m) 0 (V0 m) [hostOps1] c main_v43
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  unfold Pipeline.afterTail₀
  show StableHlo.after hostOps1 _ (Proc.devRef .tc main_v43) = _
  after_results
  have e6 : Pipeline.withArrays (cfgs 0).spec c (V0 m c) (fun w => (dats m 0 c).arrAt w (cfgs 0).N)
      (Proc.devRef .tc main_arg6) = m ((c : Thread nD τ).loc main_arg6) :=
    (Pipeline.withArrays_of_ne _ c (V0 m c) _ main_arg6
      (by exact (by decide : ∀ w, Pipeline.arrRef spec0 w ≠ main_arg6))).trans (V_main_arg6 m c)
  have e40 : Pipeline.withArrays (cfgs 0).spec c (V0 m c) (fun w => (dats m 0 c).arrAt w (cfgs 0).N)
      (Proc.devRef .tc main_v40) = (dats m 0 c).arrAt 5 cfg0.N :=
    Pipeline.withArrays_arr spec0 launch0.win.arr_inj c _ _ 5
  rw [e6, e40, final_args m c]
  rfl

end Cert.CFConv.Ker

end
-- ==== Proof.KernelRun.lean ====
/-
  The idealized kernel program's run, with its result named: every weakly fair execution ends with the result buffer
  at the scatter-added message rows, as one function of the arguments as launched, and the arguments unchanged.
-/
import proofs.«165563_j9560597201471_1_alg».proof.Proof.KernelTail

set_option maxRecDepth 16384

noncomputable section

namespace Cert.CFConv.Ker

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result on device c, of the arguments as launched. -/
def resultOf (c : Dev nD) : Buf (Elt Ideal) ((c.tc : Thread nD τ).loc main_v43) :=
  result (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

theorem kernel_run : θ_run (defs (F := Ideal)) (onTc (τ := τ) (main (F := Ideal))) ⟨m, fun _ => 0, ρ⟩ (fun r => ∀ c : Dev nD,
      r.2.mem ((c.tc : Thread nD τ).loc main_v43) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v43 (Pipeline.mem_restRefs_of main_v43 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.CFConv.Ker

end
-- ==== Proof.PreFacts.lean ====
/-
  The printed precondition, read back: two facts about the centre vector μ (128 entries).

  The precondition is a conjunction. One conjunct says that every entry of μ has absolute value below +∞, so every
  entry is a real number: an extended real x with max x (-x) < +∞ is neither +∞ nor -∞. The last conjunct compares
  two scalars, entry 1 and entry 0 of μ (each a one-entry slice reshaped to rank 0), and says that they differ.
-/
import proofs.«165563_j9560597201471_1_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.CFConv

open Idealize.ShloMosaic Idealize.ShloMosaic.ValueIdx Cert.Pre_finite_inputs

/-- The scalar shape has one index. -/
instance subsingleton_scalar_idx : Subsingleton (⟨0, ![]⟩ : Shape).Idx := ⟨fun a b => funext fun d => d.elim0⟩

/-- A one-entry slice of a 128-vector at offset o, reshaped to a scalar, is entry o of the vector. -/
theorem slice_scalar_apply {α : Type} (o : Nat) (k : Fin 128) (hk : k.val = o) (x : (⟨1, ![128]⟩ : Shape).Idx → α)
    (hs : (⟨1, ![128]⟩ : Shape).Slices ![o] ⟨1, ![1]⟩) (hc : (⟨1, ![1]⟩ : Shape).ShapeCasts ⟨0, ![]⟩)
    (j : (⟨0, ![]⟩ : Shape).Idx) :
    shapeCast ⟨0, ![]⟩ (extractStridedSlice ⟨1, ![1]⟩ ![o] x hs) hc j = x (ix1 k) := by
  refine (shapeCast_apply _ hc j (ix1 (0 : Fin 1)) ?_).trans ?_
  · have h1 := ((⟨1, ![1]⟩ : Shape).rowMajor (ix1 (0 : Fin 1))).isLt
    have h2 := ((⟨0, ![]⟩ : Shape).rowMajor j).isLt
    have e1 : (⟨1, ![1]⟩ : Shape).numel = 1 := by decide
    have e2 : (⟨0, ![]⟩ : Shape).numel = 1 := by decide
    omega
  · refine extractStridedSlice_apply _ _ hs _ (ix1 k) (fun a => ?_)
    have ha : a = 0 := Subsingleton.elim _ _
    subst ha
    show k.val = o + 0
    omega

/-- Entry 1. -/
theorem slice1_scalar_apply {α : Type} (x : (⟨1, ![128]⟩ : Shape).Idx → α)
    (hs : (⟨1, ![128]⟩ : Shape).Slices ![1] ⟨1, ![1]⟩) (hc : (⟨1, ![1]⟩ : Shape).ShapeCasts ⟨0, ![]⟩)
    (j : (⟨0, ![]⟩ : Shape).Idx) :
    shapeCast ⟨0, ![]⟩ (extractStridedSlice ⟨1, ![1]⟩ ![1] x hs) hc j = x (ix1 (1 : Fin 128)) :=
  slice_scalar_apply 1 1 rfl x hs hc j

/-- Entry 0. -/
theorem slice0_scalar_apply {α : Type} (x : (⟨1, ![128]⟩ : Shape).Idx → α)
    (hs : (⟨1, ![128]⟩ : Shape).Slices ![0] ⟨1, ![1]⟩) (hc : (⟨1, ![1]⟩ : Shape).ShapeCasts ⟨0, ![]⟩)
    (j : (⟨0, ![]⟩ : Shape).Idx) :
    shapeCast ⟨0, ![]⟩ (extractStridedSlice ⟨1, ![1]⟩ ![0] x hs) hc j = x (ix1 (0 : Fin 128)) :=
  slice_scalar_apply 0 0 rfl x hs hc j

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- A decided proposition whose bit is set holds. -/
theorem of_ofBool_decide {p : Prop} [Decidable p] (h : BitVec.ofBool (decide p) = 1#1) : p := by
  by_cases hp : p
  · exact hp
  · simp [hp] at h

theorem pre_mu [Cert.Pre_finite_inputs.Facts]
    (x0 : FVec Ideal S32768x256 .f32) (x1 : FVec Ideal S32768x3 .f32) (x2 : FVec Ideal S128x256 .f32)
    (x3 : FVec Ideal S256x256 .f32) (x4 : FVec Ideal S128 .f32) (x5 x6 : IVec S262144 32) (x7 : IVec S32768 32)
    (h : Cert.Pre_finite_inputs.fn (F := Ideal) x0 x1 x2 x3 x4 x5 x6 x7 = fun _ => 1#1) :
    (∀ k : Fin 128, ∃ r : ℝ, x4 (ix1 k) = (r : EReal)) ∧ x4 (ix1 (1 : Fin 128)) ≠ x4 (ix1 (0 : Fin 128)) := by
  have h0 := congrFun h ValueIdx.ix0
  dsimp only [Cert.Pre_finite_inputs.fn, Cert.Pre_finite_inputs.fn_part1] at h0
  obtain ⟨h23, h28⟩ := IntOp.andi_eq_one.1 h0
  obtain ⟨_, h22⟩ := IntOp.andi_eq_one.1 h23
  refine ⟨fun k => ?_, ?_⟩
  · have hk := Host.reduce_andi_all _ _ _ _ _ h22 (ix1 k)
    have htop : Ideal.ofBits .f32 0x7F800000#32 = (⊤ : EReal) := by simp [Ideal.ofBits, Ideal.ieee]
    have hk' : BitVec.ofBool (decide (max (x4 (ix1 k)) (-(x4 (ix1 k))) < Ideal.ofBits .f32 0x7F800000#32)) = 1#1 := hk
    rw [htop] at hk'
    exact real_of_abs_lt_top _ (of_ofBool_decide hk')
  · rw [cmpf_apply, slice1_scalar_apply x4, slice0_scalar_apply x4] at h28
    have h28' : BitVec.ofBool (decide (x4 (ix1 (1 : Fin 128)) ≠ x4 (ix1 (0 : Fin 128)))) = 1#1 := h28
    exact of_ofBool_decide h28'

end Cert.CFConv

end
-- ==== Proof.KernelEntryRead.lean ====
/-
  What the host hands the kernel region, read at one entry.

  With a = μ 1 and b = μ 0 the first two centres, the host computes the scalar s = √(1 / ((a - b)·(a - b))), the square
  root of g. The column of scaled squared distances has, at edge e, the squared distance of e times s; the row of
  scaled centres has, at position k, the centre μ k times s. Both are a reshape (which keeps row-major positions) of an
  elementwise product with the scalar s broadcast to every position.
-/
import proofs.«165563_j9560597201471_1_alg».proof.Proof.KernelEntry
import proofs.«165563_j9560597201471_1_alg».proof.Proof.PreFacts
import proofs.«165563_j9560597201471_1_alg».proof.Proof.Spec
import Idealize.ShloMosaic.Lib.ValueLayout

noncomputable section

namespace Cert.CFConv.Ker

open Idealize.ShloMosaic Idealize.ShloMosaic.ValueIdx Cert.KernelIdeal Cert.CFConv

/-- The scalar √g, at the one scalar index: the square root of 1 / ((μ 1 - μ 0)·(μ 1 - μ 0)). -/
theorem sqrtGamma_apply (x4 : FVec Ideal S128 .f32) (j : S_.Idx) :
    sqrtGamma (F := Ideal) x4 j = Ideal.sqrt (gammaOf (x4 (ix1 (1 : Fin 128))) (x4 (ix1 (0 : Fin 128)))) := by
  have e1 : mu1 (F := Ideal) x4 j = x4 (ix1 (1 : Fin 128)) := slice1_scalar_apply x4 _ _ j
  have e0 : mu0 (F := Ideal) x4 j = x4 (ix1 (0 : Fin 128)) := slice0_scalar_apply x4 _ _ j
  show Ideal.sqrt (Ideal.div (Ideal.ofBits .f32 0x3F800000#32)
    ((mu1 (F := Ideal) x4 j - mu0 (F := Ideal) x4 j) * (mu1 (F := Ideal) x4 j - mu0 (F := Ideal) x4 j))) = _
  rw [e1, e0]
  rfl

/-- A vector made a column keeps its entries: position (e, 0) of the column is position e of the vector. -/
theorem shapeCast_a_a1_apply {α : Type} {a : ℕ} (x : (⟨1, ![a]⟩ : Shape).Idx → α)
    (h : (⟨1, ![a]⟩ : Shape).ShapeCasts ⟨2, ![a, 1]⟩) (e : Fin a) (u : Fin 1) :
    shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- A scalar broadcast to any shape reads the scalar at every position. -/
theorem bcast_scalar_apply {α : Type} {t : Shape} (h : (⟨0, ![]⟩ : Shape).BroadcastsInDim t ![])
    (v : (⟨0, ![]⟩ : Shape).Idx → α) (i : t.Idx) : broadcastInDim t ![] h v i = v ix0 :=
  broadcastInDim_apply _ h v i ix0 (fun a => a.elim0)

/-- The scaled squared distance of edge e is its squared distance times √g. -/
theorem dScaled_apply (x1 : FVec Ideal S32768x3 .f32) (x4 : FVec Ideal S128 .f32) (x5 x6 : IVec S262144 32) (e : Fin 262144) :
    dScaled (F := Ideal) x1 x4 x5 x6 (ix2 e (0 : Fin 1))
      = sqDist (F := Ideal) x1 x5 x6 (ix1 e) * Ideal.sqrt (gammaOf (x4 (ix1 (1 : Fin 128))) (x4 (ix1 (0 : Fin 128)))) := by
  unfold dScaled
  refine (shapeCast_a_a1_apply _ _ e (0 : Fin 1)).trans ?_
  show sqDist (F := Ideal) x1 x5 x6 (ix1 e) * broadcastInDim S262144 ![] _ (sqrtGamma (F := Ideal) x4) (ix1 e) = _
  rw [bcast_scalar_apply, sqrtGamma_apply]

/-- The scaled centre at position k is the centre μ k times √g. -/
theorem muScaled_apply (x4 : FVec Ideal S128 .f32) (k : Fin 128) :
    muScaled (F := Ideal) x4 (ix2 (0 : Fin 1) k)
      = x4 (ix1 k) * Ideal.sqrt (gammaOf (x4 (ix1 (1 : Fin 128))) (x4 (ix1 (0 : Fin 128)))) := by
  unfold muScaled
  refine (shapeCast_a_1a_apply _ _ (0 : Fin 1) k).trans ?_
  show x4 (ix1 k) * broadcastInDim S128 ![] _ (sqrtGamma (F := Ideal) x4) (ix1 k) = _
  rw [bcast_scalar_apply, sqrtGamma_apply]

end Cert.CFConv.Ker

end
-- ==== Proof.CrossNames.lean ====
/-
  The two programs are printed in two namespaces, each with its own copy of the shape abbreviations and of the
  gather and reduction records. The copies are the same literals, so what the host of the one program computes
  before its kernel region and what the other program computes in its first stages are the same terms:

  the squared distance of every edge (wrap the two node indices, gather the two end points' positions, subtract,
  square, sum over the three coordinates), and the feature rows gathered at the wrapped source indices.

  Once every stage's definition is opened on both sides, the two sides are the same composition of the same
  operations over equal literals; the side conditions the records carry are proofs, and any two proofs of one
  proposition are equal.
-/
import proofs.«165563_j9560597201471_1_alg».proof.Proof.KernelEntry
import proofs.«165563_j9560597201471_1_alg».proof.Proof.Gen.ReferenceIdeal.Read

noncomputable section

namespace Cert.CFConv

open Idealize.ShloMosaic

/-- The squared distance of every edge is the same array in both programs. -/
theorem sqDist_eq_ref (x1 : FVec Ideal Cert.KernelIdeal.S32768x3 .f32) (x5 x6 : IVec Cert.KernelIdeal.S262144 32) :
    Ker.sqDist (F := Ideal) x1 x5 x6 = Cert.ReferenceIdeal.Read.val_main_v16 (F := Ideal) x1 x5 x6 := by
  unfold Ker.sqDist Ker.posDiff Ker.wrapIdx
  unfold Cert.ReferenceIdeal.Read.val_main_v16 Cert.ReferenceIdeal.Read.val_main_v15
    Cert.ReferenceIdeal.Read.val_main_v14 Cert.ReferenceIdeal.Read.val_main_v6 Cert.ReferenceIdeal.Read.val_main_v13
    Cert.ReferenceIdeal.Read.val_main_v5 Cert.ReferenceIdeal.Read.val_main_v12 Cert.ReferenceIdeal.Read.val_main_v4
    Cert.ReferenceIdeal.Read.val_main_v11 Cert.ReferenceIdeal.Read.val_main_v1 Cert.ReferenceIdeal.Read.val_main_v3
    Cert.ReferenceIdeal.Read.val_main_v8 Cert.ReferenceIdeal.Read.val_main_v10 Cert.ReferenceIdeal.Read.val_main_v0
    Cert.ReferenceIdeal.Read.val_main_v2 Cert.ReferenceIdeal.Read.val_main_v7 Cert.ReferenceIdeal.Read.val_main_v9
    Cert.ReferenceIdeal.Read.val_main_c Cert.ReferenceIdeal.Read.val_main_c_0 Cert.ReferenceIdeal.Read.val_main_c_1
    Cert.ReferenceIdeal.Read.val_main_c_2 Cert.ReferenceIdeal.Read.val_main_cst
  rfl

/-- The feature rows gathered at every edge's source node are the same array in both programs. -/
theorem xSrc_eq_ref (x0 : FVec Ideal Cert.KernelIdeal.S32768x256 .f32) (x5 : IVec Cert.KernelIdeal.S262144 32) :
    Ker.xSrc (F := Ideal) x0 x5 = Cert.ReferenceIdeal.Read.val_main_v44 (F := Ideal) x0 x5 := by
  unfold Ker.xSrc Ker.wrapIdx
  unfold Cert.ReferenceIdeal.Read.val_main_v44 Cert.ReferenceIdeal.Read.val_main_v43
    Cert.ReferenceIdeal.Read.val_main_v42 Cert.ReferenceIdeal.Read.val_main_v39 Cert.ReferenceIdeal.Read.val_main_v41
    Cert.ReferenceIdeal.Read.val_main_v38 Cert.ReferenceIdeal.Read.val_main_v40 Cert.ReferenceIdeal.Read.val_main_c_4
    Cert.ReferenceIdeal.Read.val_main_c_5
  rfl

end Cert.CFConv

end
-- ==== Proof.RefValue.lean ====
/-
  The reference program's message of one edge at one feature column, read off its stages.

  The weight of edge e at centre k is exp ((-g)·((D e - μ k)·(D e - μ k))) with g = 1 / ((μ 1 - μ 0)·(μ 1 - μ 0)) and
  D e the squared distance of the edge's two end points. The first product at (e, k2) is max (Σ_k1 weight e k1 · W1 k1 k2) 0,
  the second at (e, c) is max (Σ_k2 first e k2 · W2 k2 c) 0, and the message is the gathered feature times the second.
  Each stage is an elementwise operation, a broadcast, a slice or a contraction, so its element at an index is the
  same operation on its operands' elements at indices computed from the literal shapes; what is left is to see that
  those computed indices are the coordinates themselves.
-/
import proofs.«165563_j9560597201471_1_alg».proof.Proof.Gen.ReferenceIdeal.Read
import proofs.«165563_j9560597201471_1_alg».proof.Proof.Spec

noncomputable section

open scoped BigOperators

namespace Cert.CFConv.Ref

open Idealize.ShloMosaic Idealize.ShloMosaic.ValueIdx Cert.ReferenceIdeal Cert.ReferenceIdeal.Read Cert.CFConv

/-- The rank-0 array holding μ 1: the one-element slice [1:2] of μ, reshaped to a scalar. -/
theorem mu1_apply (x4 : FVec Ideal S128 .f32) (i : S_.Idx) :
    val_main_v18 (F := Ideal) x4 i = x4 (ix1 (1 : Fin 128)) := by
  unfold val_main_v18
  rw [shapeCast_apply _ Gen.shapeCasts_S1_S_ i (ix1 (0 : Fin 1))
    (by rw [Shape.rowMajor_val_one]; exact (Shape.rowMajorPi_zero _ i).symm), val_main_v17_apply]
  exact congrArg x4 (funext fun a => Fin.ext (by match a with | ⟨0, _⟩ => rfl))

/-- The rank-0 array holding μ 0: the one-element slice [0:1] of μ, reshaped to a scalar. -/
theorem mu0_apply (x4 : FVec Ideal S128 .f32) (i : S_.Idx) :
    val_main_v20 (F := Ideal) x4 i = x4 (ix1 (0 : Fin 128)) := by
  unfold val_main_v20
  rw [shapeCast_apply _ Gen.shapeCasts_S1_S_ i (ix1 (0 : Fin 1))
    (by rw [Shape.rowMajor_val_one]; exact (Shape.rowMajorPi_zero _ i).symm), val_main_v19_apply]
  exact congrArg x4 (funext fun a => Fin.ext (by match a with | ⟨0, _⟩ => rfl))

/-- The weight of edge e at centre k: the squared distance and the centre are broadcast along the other axis, so
    at (e, k) they are D e and μ k; the factor -g is a scalar broadcast to every (e, k). -/
theorem rbf_apply (x1 : FVec Ideal S32768x3 .f32) (x4 : FVec Ideal S128 .f32) (x5 x6 : IVec S262144 32)
    (e : Fin 262144) (k : Fin 128) :
    val_main_v33 (F := Ideal) x1 x4 x5 x6 (ix2 e k)
      = rbfPlain (-(gammaOf (x4 (ix1 (1 : Fin 128))) (x4 (ix1 (0 : Fin 128)))))
          (val_main_v16 (F := Ideal) x1 x5 x6 (ix1 e)) (x4 (ix1 k)) := by
  have eD : idx_main_v25 (idx_main_v27 (ix2 e k)) = ix1 e :=
    funext fun a => Fin.ext (by match a with | ⟨0, _⟩ => rfl)
  have eM : idx_main_v26 (idx_main_v28 (ix2 e k)) = ix1 k :=
    funext fun a => Fin.ext (by match a with | ⟨0, _⟩ => rfl)
  rw [val_main_v33_apply, val_main_v32_apply, val_main_v31_apply, val_main_v24_apply, val_main_v23_apply,
    val_main_cst_3_apply, val_main_v22_apply, val_main_v21_apply, mu1_apply, mu0_apply, val_main_v30_apply,
    val_main_v29_apply, val_main_v27_apply, val_main_v25_apply, val_main_v28_apply, val_main_v26_apply, eD, eM]
  simp only [Ideal.hostUnary_exp_def, Ideal.mulf_def, Ideal.subf_def, Ideal.hostNegf_def, Ideal.negf_def,
    Ideal.hostDivf_def, Ideal.ofBits_def]
  rfl

/-- The first product, after its relu, at (e, k2): the contraction runs over the centres. -/
theorem hidden_apply (x1 : FVec Ideal S32768x3 .f32) (x2 : FVec Ideal S128x256 .f32) (x4 : FVec Ideal S128 .f32)
    (x5 x6 : IVec S262144 32) (e : Fin 262144) (k2 : Fin 256) :
    val_main_v35 (F := Ideal) x1 x2 x4 x5 x6 (ix2 e k2)
      = max (∑ k1 : Fin 128, rbfPlain (-(gammaOf (x4 (ix1 (1 : Fin 128))) (x4 (ix1 (0 : Fin 128)))))
              (val_main_v16 (F := Ideal) x1 x5 x6 (ix1 e)) (x4 (ix1 k1)) * x2 (ix2 k1 k2)) zeroF := by
  have el : ∀ k : Fin 128, lidx_main_v34 (ix2 e k2) k = ix2 e k := fun k =>
    funext fun a => Fin.ext (by match a with | ⟨0, _⟩ => rfl | ⟨1, _⟩ => rfl)
  have er : ∀ k : Fin 128, ridx_main_v34 (ix2 e k2) k = ix2 k k2 := fun k =>
    funext fun a => Fin.ext (by match a with | ⟨0, _⟩ => rfl | ⟨1, _⟩ => rfl)
  rw [val_main_v35_apply, val_main_v34_apply, val_main_call0_v0_apply, val_main_call0_cst_apply]
  simp only [el, er, rbf_apply, Ideal.maximumf_def, Ideal.ofBits_def]

/-- The message of edge e at column col. -/
theorem msg_apply (x0 : FVec Ideal S32768x256 .f32) (x1 : FVec Ideal S32768x3 .f32) (x2 : FVec Ideal S128x256 .f32)
    (x3 : FVec Ideal S256x256 .f32) (x4 : FVec Ideal S128 .f32) (x5 x6 : IVec S262144 32)
    (e : Fin 262144) (col : Fin 256) :
    val_main_v45 (F := Ideal) x0 x1 x2 x3 x4 x5 x6 (ix2 e col)
      = msgAt (fun k => rbfPlain (-(gammaOf (x4 (ix1 (1 : Fin 128))) (x4 (ix1 (0 : Fin 128)))))
                  (val_main_v16 (F := Ideal) x1 x5 x6 (ix1 e)) (x4 (ix1 k)))
          (fun k1 k2 => x2 (ix2 k1 k2)) (fun k2 c => x3 (ix2 k2 c))
          (val_main_v44 (F := Ideal) x0 x5 (ix2 e col)) col := by
  have el : ∀ k : Fin 256, lidx_main_v36 (ix2 e col) k = ix2 e k := fun k =>
    funext fun a => Fin.ext (by match a with | ⟨0, _⟩ => rfl | ⟨1, _⟩ => rfl)
  have er : ∀ k : Fin 256, ridx_main_v36 (ix2 e col) k = ix2 k col := fun k =>
    funext fun a => Fin.ext (by match a with | ⟨0, _⟩ => rfl | ⟨1, _⟩ => rfl)
  rw [val_main_v45_apply, val_main_v37_apply, val_main_v36_apply, val_main_call1_v0_apply, val_main_call1_cst_apply]
  simp only [el, er, hidden_apply, Ideal.maximumf_def, Ideal.mulf_def, Ideal.ofBits_def]
  rfl

end Cert.CFConv.Ref

end
-- ==== Proof.Bridge.lean ====
/-
  The two programs' message arrays are one array, when the centres are real numbers and the first two differ.

  Entry (e, c) of the kernel region's output is the message formula at the weights
      exp (0 - (D e·s - μ k·s)·(D e·s - μ k·s)),   s = √g,  g = 1 / ((μ 1 - μ 0)·(μ 1 - μ 0)),
  and entry (e, c) of the reference's message array is the same formula at the weights exp ((-g)·((D e - μ k)·(D e - μ k))),
  over the same squared distances D, the same weight matrices (a change of float format is the identity) and the
  same gathered features. With μ 1 ≠ μ 0 real, g is a positive real and the two weights agree for every extended real
  D e and every real μ k (the law of the specification module), so the two arrays agree entry by entry.
-/
import proofs.«165563_j9560597201471_1_alg».proof.Proof.KernelValue
import proofs.«165563_j9560597201471_1_alg».proof.Proof.KernelEntryRead
import proofs.«165563_j9560597201471_1_alg».proof.Proof.CrossNames
import proofs.«165563_j9560597201471_1_alg».proof.Proof.RefValue

noncomputable section

namespace Cert.CFConv

open Idealize.ShloMosaic Idealize.ShloMosaic.ValueIdx Cert.KernelIdeal Cert.KernelIdeal.Facts₀ Cert.KernelIdeal.Facts

/-- The kernel region's output array IS the reference's message array. -/
theorem msg_bridge (x0 : FVec Ideal S32768x256 .f32) (x1 : FVec Ideal S32768x3 .f32) (x2 : FVec Ideal S128x256 .f32)
    (x3 : FVec Ideal S256x256 .f32) (x4 : FVec Ideal S128 .f32) (x5 x6 : IVec S262144 32)
    (hfin : ∀ k : Fin 128, ∃ r : ℝ, x4 (ix1 k) = (r : EReal))
    (hne : x4 (ix1 (1 : Fin 128)) ≠ x4 (ix1 (0 : Fin 128))) :
    Ker.msgArr (Ker.dScaled x1 x4 x5 x6) (Ker.muScaled x4) (truncf .bf16 x2 bitsLt_bf16_f32)
        (truncf .bf16 x3 bitsLt_bf16_f32) (Ker.xSrc x0 x5)
      = Cert.ReferenceIdeal.Read.val_main_v45 (F := Ideal) x0 x1 x2 x3 x4 x5 x6 := by
  funext i
  obtain ⟨e, col, rfl⟩ : ∃ (e : Fin 262144) (col : Fin 256), i = ix2 e col := ⟨i 0, i 1, eq_ix2 i⟩
  rw [Ref.msg_apply]
  show msgAt (fun k => rbfScaled (Ker.dScaled x1 x4 x5 x6 (ix2 e (0 : Fin 1))) (Ker.muScaled x4 (ix2 (0 : Fin 1) k)))
      (fun k1 k2 => x2 (ix2 k1 k2)) (fun k2 c => x3 (ix2 k2 c)) (Ker.xSrc x0 x5 (ix2 e col)) col = _
  rw [xSrc_eq_ref]
  refine msgAt_congr (fun k => ?_) _ _ _ _
  rw [Ker.dScaled_apply, Ker.muScaled_apply, sqDist_eq_ref]
  obtain ⟨rk, hk⟩ := hfin k
  obtain ⟨a, ha⟩ := hfin 1
  obtain ⟨b, hb⟩ := hfin 0
  have hab : a ≠ b := fun h => hne (by rw [ha, hb, h])
  rw [hk, ha, hb]
  exact rbf_law a b rk hab _

end Cert.CFConv

end
-- ==== Proof.lean ====
/-
  A continuous-filter convolution over a graph: per edge, radial-basis weights of the squared distance of its end
  points against 128 centres, two matrix products each followed by max with zero, a product with the source node's
  features, and a sum of the messages into the destination nodes.

  The kernel program does the two matrix products and the final product in a kernel region over blocks of 2048 edges;
  before it the host scales the squared distances and the centres by √g, g = 1 / ((μ 1 - μ 0)·(μ 1 - μ 0)), so that the
  kernel's weight is exp (0 - (D·√g - μ·√g)²). The reference's weight is exp ((-g)·(D - μ)²). The two are one number when
  the centres are real and μ 1 ≠ μ 0 (√g·√g = g for a positive real g, and distributivity over the reals; at an
  infinite D both are 0) — and differ when μ 1 = μ 0, where g = +∞: this is why the precondition says μ 1 ≠ μ 0, the
  domain of the reference's own division. Everything else is the same operations on both sides: the kernel's blocks
  tile the edges, a block's entry depends on its own edge's row only, a change of float format is the identity at the
  ideal instance, a matrix product into a zero accumulator is the host's contraction, and both programs end in the
  same scatter-add.

  The three frames: the two kernel programs' are the generated frame certificates; the reference's is its generated
  run with the result dropped. The idealization rewrote nothing, so its conjunct is trivial.
-/
import proofs.«165563_j9560597201471_1_alg».proof.Defs
import proofs.«165563_j9560597201471_1_alg».proof.Proof.Gen.Kernel
import proofs.«165563_j9560597201471_1_alg».proof.Proof.Gen.Kernel.Skeleton
import proofs.«165563_j9560597201471_1_alg».proof.Proof.Gen.Kernel.Launch
import proofs.«165563_j9560597201471_1_alg».proof.Proof.Gen.Kernel.Points
import proofs.«165563_j9560597201471_1_alg».proof.Proof.Gen.Kernel.Frame
import proofs.«165563_j9560597201471_1_alg».proof.Proof.Gen.KernelIdeal
import proofs.«165563_j9560597201471_1_alg».proof.Proof.Gen.KernelIdeal.Skeleton
import proofs.«165563_j9560597201471_1_alg».proof.Proof.Gen.KernelIdeal.Launch
import proofs.«165563_j9560597201471_1_alg».proof.Proof.Gen.KernelIdeal.Points
import proofs.«165563_j9560597201471_1_alg».proof.Proof.Gen.KernelIdeal.Frame
import proofs.«165563_j9560597201471_1_alg».proof.Proof.Gen.ReferenceIdeal
import proofs.«165563_j9560597201471_1_alg».proof.Proof.Gen.ReferenceIdeal.Run
import proofs.«165563_j9560597201471_1_alg».proof.Proof.Gen.ReferenceIdeal.Read
import proofs.«165563_j9560597201471_1_alg».proof.Proof.Gen.Pre_finite_inputs
import proofs.«165563_j9560597201471_1_alg».proof.Proof.KernelRun
import proofs.«165563_j9560597201471_1_alg».proof.Proof.Bridge
import proofs.«165563_j9560597201471_1_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, under the precondition, the reference's result is the kernel program's:
    the same scatter-add of one message array. -/
theorem algebraic : Cert.algebraic_KernelIdeal_ReferenceIdeal := by
  intro m ρ m' ρ' hpre hagree
  refine ⟨Cert.CFConv.Ker.resultOf m, Cert.CFConv.Ker.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, -⟩ := hagree c
  obtain ⟨hfin, hne⟩ := Cert.CFConv.pre_mu _ _ _ _ _ _ _ _ (hpre c)
  rw [Cert.ReferenceIdeal.Read.val_main_v48_eq, h0, h1, h2, h3, h4, h5, h6]
  unfold Cert.ReferenceIdeal.Read.val_main_v48
  rw [← Cert.CFConv.msg_bridge _ _ _ _ _ _ _ hfin hne]
  rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
